-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x64 .f32) (main_arg2 : FVec F S64 .f32) (main_arg3 : FVec F S64x64 .f32) (main_arg4 : FVec F S64 .f32) (main_arg5 : FVec F S64x64 .f32) (main_arg6 : FVec F S64 .f32) (main_arg7 : IVec S1600000 32) (main_arg8 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S1x64 : Shape := ⟨2, ![1, 64]⟩
abbrev S1600000x64 : Shape := ⟨2, ![1600000, 64]⟩

abbrev nBuf : Space → Nat
  | .hbm => 81
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S50000x128, .f32⟩
  | .hbm, ⟨44, _⟩ => ⟨S1600000x1, .i32⟩
  | .hbm, ⟨45, _⟩ => ⟨S50000x128, .f32⟩
  | .hbm, ⟨46, _⟩ => ⟨S50000x64, .f32⟩
  | .hbm, ⟨47, _⟩ => ⟨S50000x1, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S50000x64, .f32⟩
  | .hbm, ⟨61, _⟩ => ⟨S1600000x1, .i32⟩
  | .hbm, ⟨62, _⟩ => ⟨S50000x64, .f32⟩
  | .hbm, ⟨63, _⟩ => ⟨S50000x64, .f32⟩
  | .hbm, ⟨64, _⟩ => ⟨S50000x1, .f32⟩
  | .hbm, ⟨65, _⟩ => ⟨S50000x64, .f32⟩
  | .hbm, ⟨66, _⟩ => ⟨S50000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .f32⟩
  | .hbm, ⟨77, _⟩ => ⟨S50000x64, .f32⟩
  | .hbm, ⟨78, _⟩ => ⟨S1600000x1, .i32⟩
  | .hbm, ⟨79, _⟩ => ⟨S50000x64, .f32⟩
  | .hbm, ⟨80, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S50000x64 : Shape := ⟨2, ![50000, 64]⟩
abbrev S1x64 : Shape := ⟨2, ![1, 64]⟩
abbrev S1600000x64 : Shape := ⟨2, ![1600000, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S50000x1, .f32⟩
  | .hbm, ⟨56, _⟩ => ⟨S50000x64, .f32⟩
  | .hbm, ⟨57, _⟩ => ⟨S50000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S50000x64, .f32⟩
  | .hbm, ⟨69, _⟩ => ⟨S1600000x1, .i32⟩
  | .hbm, ⟨70, _⟩ => ⟨S50000x64, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S50000x1, .f32⟩
  | .hbm, ⟨82, _⟩ => ⟨S50000x64, .f32⟩
  | .hbm, ⟨83, _⟩ => ⟨S50000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S_, .f32⟩
  | .hbm, ⟨94, _⟩ => ⟨S50000x64, .f32⟩
  | .hbm, ⟨95, _⟩ => ⟨S1600000x1, .i32⟩
  | .hbm, ⟨96, _⟩ => ⟨S50000x64, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Stretch.lean ====
/-
  The host stretches of the kernel's program, one at a time, at ANY contents V of the buffers when the stretch is
  entered: what each buffer a later item reads holds afterwards, as the stretch's operations of the buffers it reads.
  (Degrees: a scatter-add of ones at the edges' ends; the clip below at one; the inverse square roots; and per layer
  the aggregate: the features scaled by the out-degree factor, gathered at the wrapped source indices, scatter-added
  at the destinations.)
-/
import proofs.«164239_j80633716015250_1_alg».proof.Proof.Gen.KernelIdeal.Frame
import Idealize.ShloMosaic.PureOps.Ideal

set_option maxRecDepth 16384

noncomputable section
namespace Cert.KernelIdeal.Stretch
open Cert.KernelIdeal Cert.KernelIdeal.Gen Idealize.ShloMosaic Idealize.ShloMosaic.TcCoe Idealize.SL.Sem Idealize.ShloMosaic.StableHlo

variable (V : Valuation τ sig (Elt Ideal))

/-- The source indices as the gather takes them: a negative index wrapped once by the number of nodes. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- How many edges end (or start) at each node: ones scatter-added at the given edge ends. -/
def degree (ends : IVec S1600000 32) (ones : FVec Ideal S1600000 .f32) : FVec Ideal S50000 .f32 :=
  Host.scatterAdd (F := Ideal) scatter_S50000_S1600000x1_S1600000_n_0_0_1
    (broadcastInDim S50000 ![] bcast_S_S50000 (constant (F := Ideal) S_ .f32 0x00000000#32))
    (broadcastInDim S1600000x1 ![0] bcast_S1600000_S1600000x1_0 ends) ones

/-- A degree clipped below at the given scalar. -/
def clipped (one : FVec Ideal S_ .f32) (deg : FVec Ideal S50000 .f32) : FVec Ideal S50000 .f32 :=
  maximumf (broadcastInDim S50000 ![] bcast_S_S50000 (id one)) deg

/-! ## The degrees -/

theorem ones_after0 : after hostOps0 V (Proc.devRef .tc main_v0)
    = broadcastInDim S1600000 ![] bcast_S_S1600000 (constant (F := Ideal) S_ .f32 0x3F800000#32) := by
  dsimp only [hostOps0]; after_results_simp <;> rfl
theorem one_after0 : after hostOps0 V (Proc.devRef .tc main_cst_1) = constant (F := Ideal) S_ .f32 0x3F800000#32 := by
  dsimp only [hostOps0]; after_results_simp <;> rfl
theorem outdeg_after0 : after hostOps0 V (Proc.devRef .tc main_v3)
    = degree (V (Proc.devRef .tc main_arg7)) (broadcastInDim S1600000 ![] bcast_S_S1600000 (constant (F := Ideal) S_ .f32 0x3F800000#32)) := by
  dsimp only [hostOps0]; after_results_simp <;> rfl

theorem outclip_after1 : after hostOps0_1 V (Proc.devRef .tc main_v4)
    = clipped (V (Proc.devRef .tc main_cst_1)) (V (Proc.devRef .tc main_v3)) := by
  dsimp only [hostOps0_1]; after_results_simp <;> rfl

theorem one_after2 : after hostOps0_2 V (Proc.devRef .tc main_cst_3) = constant (F := Ideal) S_ .f32 0x3F800000#32 := by
  dsimp only [hostOps0_2]; after_results_simp <;> rfl
theorem indeg_after2 : after hostOps0_2 V (Proc.devRef .tc main_v7)
    = degree (V (Proc.devRef .tc main_arg8)) (V (Proc.devRef .tc main_v0)) := by
  dsimp only [hostOps0_2]; after_results_simp <;> rfl

theorem inclip_after3 : after hostOps0_3 V (Proc.devRef .tc main_v8)
    = clipped (V (Proc.devRef .tc main_cst_3)) (V (Proc.devRef .tc main_v7)) := by
  dsimp only [hostOps0_3]; after_results_simp <;> rfl

/-! ## The normalisations, and the three aggregates -/

theorem outnorm_after4 : after hostOps0_4 V (Proc.devRef .tc main_v9)
    = @Host.rsqrt Ideal _ S50000 .f32 (V (Proc.devRef .tc main_v4)) := by
  dsimp only [hostOps0_4]; after_results_simp <;> rfl

theorem incol_after4 : after hostOps0_4 V (Proc.devRef .tc main_v11)
    = shapeCast S50000x1 (@Host.rsqrt Ideal _ S50000 .f32 (V (Proc.devRef .tc main_v8))) shapeCasts_S50000_S50000x1 := by
  dsimp only [hostOps0_4]; after_results_simp <;> rfl

/-- A layer's aggregate over 128 features: the features scaled by the out-degree factor, gathered at the wrapped
    sources, scatter-added at the destinations. -/
def aggregate128 (h : FVec Ideal S50000x128 .f32) (on : FVec Ideal S50000 .f32) (src dst : IVec S1600000 32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128
      (mulf h (broadcastInDim S50000x128 ![0, 1] bcast_S50000x1_S50000x128_0_1 (broadcastInDim S50000x1 ![0] bcast_S50000_S50000x1_0 on)))
      (wrapped src))

/-- The same over 64 features. -/
def aggregate64 (h : FVec Ideal S50000x64 .f32) (on : FVec Ideal S50000 .f32) (src dst : IVec S1600000 32) : FVec Ideal S50000x64 .f32 :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S50000x64_S1600000x1_S1600000x64_1_0_n_n_0_1_164
      (mulf h (broadcastInDim S50000x64 ![0, 1] bcast_S50000x1_S50000x64_0_1 (broadcastInDim S50000x1 ![0] bcast_S50000_S50000x1_0 on)))
      (wrapped src))

theorem agg_after4 : after hostOps0_4 V (Proc.devRef .tc main_v24)
    = aggregate128 (V (Proc.devRef .tc main_arg0)) (@Host.rsqrt Ideal _ S50000 .f32 (V (Proc.devRef .tc main_v4)))
        (V (Proc.devRef .tc main_arg7)) (V (Proc.devRef .tc main_arg8)) := by
  dsimp only [hostOps0_4]; after_results_simp <;> rfl

theorem agg_after_region0 : after hostOps1 V (Proc.devRef .tc main_v38)
    = aggregate64 (V (Proc.devRef .tc main_v25)) (V (Proc.devRef .tc main_v9)) (V (Proc.devRef .tc main_arg7)) (V (Proc.devRef .tc main_arg8)) := by
  dsimp only [hostOps1]; after_results_simp <;> rfl

theorem agg_after_region1 : after hostOps2 V (Proc.devRef .tc main_v52)
    = aggregate64 (V (Proc.devRef .tc main_v39)) (V (Proc.devRef .tc main_v9)) (V (Proc.devRef .tc main_arg7)) (V (Proc.devRef .tc main_arg8)) := by
  dsimp only [hostOps2]; after_results_simp <;> rfl

/-! ## What a stretch leaves alone -/

theorem ones_kept1 : after hostOps0_1 V (Proc.devRef .tc main_v0) = V (Proc.devRef .tc main_v0) := by
  dsimp only [hostOps0_1]; after_results_simp
theorem outclip_kept2 : after hostOps0_2 V (Proc.devRef .tc main_v4) = V (Proc.devRef .tc main_v4) := by
  dsimp only [hostOps0_2]; after_results_simp
theorem outclip_kept3 : after hostOps0_3 V (Proc.devRef .tc main_v4) = V (Proc.devRef .tc main_v4) := by
  dsimp only [hostOps0_3]; after_results_simp

end Cert.KernelIdeal.Stretch
end
-- ==== Proof.KernelPayload.lean ====
import proofs.«164239_j80633716015250_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Pay
open Cert.KernelIdeal Cert.KernelIdeal.Gen Idealize.ShloMosaic Idealize.ShloMosaic.ValueIdx

/-! # The three layers' stored values, read at one entry

Each layer stores, on a tile of 5000 rows, the matrix whose entry `(p, q)` is
`∑ k, (x0 (p, k) * x1 (p, 0)) * x2 (k, q) + x3 q`, followed in the first two layers by the maximum with zero.
Here `x0` is the tile of features, `x1` a column of one scale per row, `x2` the weights and `x3` the bias. Over the
extended reals the change of number format is the identity and the matrix product into a zero accumulator is the plain
sum over the contracted coordinate, so each stored value at `(p, q)` is that expression. The statements are over
arbitrary vectors of the literal shapes. -/

/-- A column of shape `[a, 1]` broadcast to `[a, b]` reads, at `(p, c)`, the column's entry of row `p`:
    the row coordinate is kept and the unit axis is read at `0`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The contraction `[5000, 128] × [128, 64]`: its operand indices, axis by axis -/

theorem lhs128_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs128_1 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
theorem rhs128_0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
theorem rhs128_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, read at `(p, q)`: the sum over the contracted coordinate `k` of the left
    operand's row `p` times the right operand's column `q`. The contraction index has one axis of extent 128, and the
    sum is carried along the bijection between that index and its one coordinate. -/
theorem matmul128_apply (l : FVec Ideal S5000x128 .bf16) (r : FVec Ideal S128x64 .bf16) (p : Fin 5000) (q : Fin 64) :
    matmul (F := Ideal) dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The contraction `[5000, 64] × [64, 64]`: its operand indices, axis by axis -/

theorem lhs64_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
theorem rhs64_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
theorem rhs64_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, read at `(p, q)`: the sum over the contracted coordinate `k` of the left
    operand's row `p` times the right operand's column `q`. The contraction index has one axis of extent 64, and the
    sum is carried along the bijection between that index and its one coordinate. -/
theorem matmul64_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### The three stored values -/

/-- Layer 0 at `(p, q)`: the scaled row `p` of `x0` against column `q` of `x2`, summed over the 128 contracted
    coordinates, plus the bias at `q`, then the maximum with zero. The scale `x1 (p, 0)` comes from the column broadcast along the rows' entries and the
    bias `x3 q` from the row broadcast down the tile; casts to the same shape and format changes read through. -/
theorem pay0_apply (x0 : Vec Ideal S5000x128 .f32) (x1 : Vec Ideal S5000x1 .f32) (x2 : Vec Ideal S128x64 .f32) (x3 : Vec Ideal S64 .f32) (p : Fin 5000) (q : Fin 64) :
    k0_pay1 (F := Ideal) x0 x1 x2 x3 (ix2 p q)
      = max ((∑ k : Fin 128, x0 (ix2 p k) * x1 (ix2 p (0 : Fin 1)) * x2 (ix2 k q)) + x3 (ix1 q)) (Ideal.ofBits .f32 0x00000000#32) := by
  unfold k0_pay1
  rw [maximumf_apply, addf_apply, broadcast_apply]
  rw [matmul128_apply, broadcastTo_1b_ab_apply, shapeCast_a_1a_apply]
  simp only [truncf_apply, mulf_apply, shapeCast_self, broadcastTo_a1_ab_apply]
  rfl

/-- Layer 1 at `(p, q)`: the scaled row `p` of `x0` against column `q` of `x2`, summed over the 64 contracted
    coordinates, plus the bias at `q`, then the maximum with zero. The scale `x1 (p, 0)` comes from the column broadcast along the rows' entries and the
    bias `x3 q` from the row broadcast down the tile; casts to the same shape and format changes read through. -/
theorem pay1_apply (x0 : Vec Ideal S5000x64 .f32) (x1 : Vec Ideal S5000x1 .f32) (x2 : Vec Ideal S64x64 .f32) (x3 : Vec Ideal S64 .f32) (p : Fin 5000) (q : Fin 64) :
    k1_pay1 (F := Ideal) x0 x1 x2 x3 (ix2 p q)
      = max ((∑ k : Fin 64, x0 (ix2 p k) * x1 (ix2 p (0 : Fin 1)) * x2 (ix2 k q)) + x3 (ix1 q)) (Ideal.ofBits .f32 0x00000000#32) := by
  unfold k1_pay1
  rw [maximumf_apply, addf_apply, broadcast_apply]
  rw [matmul64_apply, broadcastTo_1b_ab_apply, shapeCast_a_1a_apply]
  simp only [truncf_apply, mulf_apply, shapeCast_self, broadcastTo_a1_ab_apply]
  rfl

/-- Layer 2 at `(p, q)`: the scaled row `p` of `x0` against column `q` of `x2`, summed over the 64 contracted
    coordinates, plus the bias at `q`. The scale `x1 (p, 0)` comes from the column broadcast along the rows' entries and the
    bias `x3 q` from the row broadcast down the tile; casts to the same shape and format changes read through. -/
theorem pay2_apply (x0 : Vec Ideal S5000x64 .f32) (x1 : Vec Ideal S5000x1 .f32) (x2 : Vec Ideal S64x64 .f32) (x3 : Vec Ideal S64 .f32) (p : Fin 5000) (q : Fin 64) :
    k2_pay1 (F := Ideal) x0 x1 x2 x3 (ix2 p q)
      = (∑ k : Fin 64, x0 (ix2 p k) * x1 (ix2 p (0 : Fin 1)) * x2 (ix2 k q)) + x3 (ix1 q) := by
  unfold k2_pay1
  rw [addf_apply]
  rw [matmul64_apply, broadcastTo_1b_ab_apply, shapeCast_a_1a_apply]
  simp only [truncf_apply, mulf_apply, shapeCast_self, broadcastTo_a1_ab_apply]

end Cert.KernelIdeal.Pay
end
-- ==== Proof.Region0.lean ====
/-
  Region 0 of the kernel's program (layer 0's dense stage), as ONE function of whole arrays.
  The region walks ten row blocks of 5000 rows. At a block it reads 5000 rows of the aggregate A (128 features), the
  same 5000 entries of the column of in-degree factors n, all of the weights W and the bias b, and writes
  clip ((A * n) W + b) into the same 5000 rows of the result. Row r = 5000 t + p of every row-blocked array is row p
  of block t, so what point t writes back is the restriction to its block of
      layer A n W b (r, q) = clip (∑ k, A (r, k) * n (r, 0) * W (k, q) + b q),
  and the ten blocks tile the 50000 rows: the result array ends at `layer` of the arrays the region was entered with.
  In this region clip x = max x 0, the layer's activation.
  Everything is stated at a parameter V, the buffer contents at the region's entry.
-/
import proofs.«164239_j80633716015250_1_alg».proof.Proof.Gen.KernelIdeal.Frame
import proofs.«164239_j80633716015250_1_alg».proof.Proof.KernelPayload
import Idealize.ShloMosaic.Lib.Pipeline.Value
import Idealize.ShloMosaic.Lib.ValueIdx

set_option maxRecDepth 16384

noncomputable section
namespace Cert.KernelIdeal.Region0
open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Pay

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the layer does to a pre-activation. -/
def clip (x : EReal) : EReal := max x (Ideal.ofBits .f32 0x00000000#32)

/-- One dense layer as a function of whole arrays: row r of the aggregate scaled by the r-th norm, times the
    weights, plus the bias, then `clip`. -/
def layer (A : S50000x128.Idx → EReal) (n : S50000x1.Idx → EReal) (W : S128x64.Idx → EReal) (b : S64.Idx → EReal) :
    S50000x64.Idx → EReal := fun i =>
  clip ((∑ k : Fin 128, A (ix2 (⟨(i 0).val, (i 0).isLt⟩ : Fin 50000) k) * n (ix2 (⟨(i 0).val, (i 0).isLt⟩ : Fin 50000) (0 : Fin 1))
        * W (ix2 k (⟨(i 1).val, (i 1).isLt⟩ : Fin 64))) + b (ix1 (⟨(i 1).val, (i 1).isLt⟩ : Fin 64)))

/-- The layer at row r, column q. -/
theorem layer_apply (A : S50000x128.Idx → EReal) (n : S50000x1.Idx → EReal) (W : S128x64.Idx → EReal) (b : S64.Idx → EReal)
    (r : Fin 50000) (q : Fin 64) :
    layer A n W b (ix2 r q) = clip ((∑ k : Fin 128, A (ix2 r k) * n (ix2 r (0 : Fin 1)) * W (ix2 k q)) + b (ix1 q)) := rfl

theorem idx_facts : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0 ∧ win0_3.index t (0 : Fin 1) = 0
    ∧ win0_4.index t (0 : Fin 2) ≤ 9 ∧ win0_4.index t (1 : Fin 2) = 0 :=
  (by decide +kernel : ∀ t : Fin grid0.N, _)

/-- The body's value at row p, column q of a tile is the layer's value at a whole-array index i, when the tile's four
    inputs are the arrays' entries that i's row and column name. -/
theorem tile_eq (A : S50000x128.Idx → EReal) (n : S50000x1.Idx → EReal) (W : S128x64.Idx → EReal) (b : S64.Idx → EReal)
    (x0 : Vec Ideal S5000x128 .f32) (x1 : Vec Ideal S5000x1 .f32) (x2 : Vec Ideal S128x64 .f32) (x3 : Vec Ideal S64 .f32)
    (i : S50000x64.Idx) (p : Fin 5000) (q : Fin 64)
    (h0 : ∀ k : Fin 128, x0 (ix2 p k) = A (ix2 (⟨(i 0).val, (i 0).isLt⟩ : Fin 50000) k))
    (h1 : x1 (ix2 p (0 : Fin 1)) = n (ix2 (⟨(i 0).val, (i 0).isLt⟩ : Fin 50000) (0 : Fin 1)))
    (h2 : ∀ k : Fin 128, x2 (ix2 k q) = W (ix2 k (⟨(i 1).val, (i 1).isLt⟩ : Fin 64)))
    (h3 : x3 (ix1 q) = b (ix1 (⟨(i 1).val, (i 1).isLt⟩ : Fin 64))) :
    k0_pay1 (F := Ideal) x0 x1 x2 x3 (ix2 p q) = layer A n W b i := by
  rw [pay0_apply]
  unfold layer clip
  simp only [h0, h1, h2, h3]

theorem flushed_eq (c : Dev nD) (t : Fin cfg0.N) :
    (dat0 V c).flushed 4 t = ((cfg0.win 4).blk t).view.read (Elt Ideal)
      (layer (V c main_v24) (V c main_v11) (V c main_arg1) (V c main_arg2)) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S5000x1) hz2, View.ld_unit_zero (S := S128x64) hz2, View.ld_unit_zero (S := S64) hz1]
  obtain ⟨e00, e01, e10, e11, e20, e21, e30, e4b, e41⟩ := idx_facts t
  funext j
  obtain ⟨p, q, rfl⟩ : ∃ (p : Fin 5000) (q : Fin 64), j = ix2 p q := ⟨j 0, j 1, eq_ix2 j⟩
  refine tile_eq (V c main_v24) (V c main_v11) (V c main_arg1) (V c main_arg2)
    (iblk0 V c 0 t) (iblk0 V c 1 t) (iblk0 V c 2 t) (iblk0 V c 3 t) (((cfg0.win 4).blk t).view.emb (ix2 p q)) p q
    (fun k => ?_) ?_ (fun k => ?_) ?_
  · show V c main_v24 (((cfg0.win 0).blk t).view.emb (ix2 p k)) = V c main_v24 _
    refine congrArg (V c main_v24) (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  · show V c main_v11 (((cfg0.win 1).blk t).view.emb (ix2 p (0 : Fin 1))) = V c main_v11 _
    refine congrArg (V c main_v11) (funext fun a => Fin.ext ?_)
    match a with
    | ⟨0, _⟩ => show win0_1.index t (0 : Fin 2) * 5000 + 1 * p.val = win0_4.index t (0 : Fin 2) * 5000 + 1 * p.val; omega
    | ⟨1, _⟩ => show win0_1.index t (1 : Fin 2) * 1 + 1 * 0 = 0; omega
  · show V c main_arg1 (((cfg0.win 2).blk t).view.emb (ix2 k q)) = V c main_arg1 _
    refine congrArg (V c main_arg1) (funext fun a => Fin.ext ?_)
    match a with
    | ⟨0, _⟩ => show win0_2.index t (0 : Fin 2) * 128 + 1 * k.val = k.val; omega
    | ⟨1, _⟩ => show win0_2.index t (1 : Fin 2) * 64 + 1 * q.val = win0_4.index t (1 : Fin 2) * 64 + 1 * q.val; omega
  · show V c main_arg2 (((cfg0.win 3).blk t).view.emb (ix1 q)) = V c main_arg2 _
    refine congrArg (V c main_arg2) (funext fun a => Fin.ext ?_)
    match a with
    | ⟨0, _⟩ => show win0_3.index t (0 : Fin 1) * 64 + 1 * q.val = win0_4.index t (1 : Fin 2) * 64 + 1 * q.val; omega

/-- An index of the result array is in point t's block iff each coordinate is in the block's range on its axis. -/
theorem mem_blk (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v25).slice (win0_4.rect t)).set ↔ _
  rw [View.set_slice_whole, Rect.mem_set_unit]
  exact Iff.rfl

/-- Every row block is some grid point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- The ten row blocks tile the result array: row r is in the block of point r / 5000. -/
theorem cover (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The result array after the region: the layer of the four arrays as the region finds them. -/
theorem final (c : Dev nD) :
    (dat0 V c).arrAt 4 cfg0.N = layer (V c main_v24) (V c main_v11) (V c main_arg1) (V c main_arg2) :=
  (dat0 V c).arrAt_eq_of_cover 4 _ (fun t _ => flushed_eq V c t) cover

end Cert.KernelIdeal.Region0
end
-- ==== Proof.Region1.lean ====
/-
  Region 1 of the kernel's program (layer 1's dense stage), as ONE function of whole arrays.
  The region walks ten row blocks of 5000 rows. At a block it reads 5000 rows of the aggregate A (64 features), the
  same 5000 entries of the column of in-degree factors n, all of the weights W and the bias b, and writes
  clip ((A * n) W + b) into the same 5000 rows of the result. Row r = 5000 t + p of every row-blocked array is row p
  of block t, so what point t writes back is the restriction to its block of
      layer A n W b (r, q) = clip (∑ k, A (r, k) * n (r, 0) * W (k, q) + b q),
  and the ten blocks tile the 50000 rows: the result array ends at `layer` of the arrays the region was entered with.
  In this region clip x = max x 0, the layer's activation.
  Everything is stated at a parameter V, the buffer contents at the region's entry.
-/
import proofs.«164239_j80633716015250_1_alg».proof.Proof.Gen.KernelIdeal.Frame
import proofs.«164239_j80633716015250_1_alg».proof.Proof.KernelPayload
import Idealize.ShloMosaic.Lib.Pipeline.Value
import Idealize.ShloMosaic.Lib.ValueIdx

set_option maxRecDepth 16384

noncomputable section
namespace Cert.KernelIdeal.Region1
open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Pay

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the layer does to a pre-activation. -/
def clip (x : EReal) : EReal := max x (Ideal.ofBits .f32 0x00000000#32)

/-- One dense layer as a function of whole arrays: row r of the aggregate scaled by the r-th norm, times the
    weights, plus the bias, then `clip`. -/
def layer (A : S50000x64.Idx → EReal) (n : S50000x1.Idx → EReal) (W : S64x64.Idx → EReal) (b : S64.Idx → EReal) :
    S50000x64.Idx → EReal := fun i =>
  clip ((∑ k : Fin 64, A (ix2 (⟨(i 0).val, (i 0).isLt⟩ : Fin 50000) k) * n (ix2 (⟨(i 0).val, (i 0).isLt⟩ : Fin 50000) (0 : Fin 1))
        * W (ix2 k (⟨(i 1).val, (i 1).isLt⟩ : Fin 64))) + b (ix1 (⟨(i 1).val, (i 1).isLt⟩ : Fin 64)))

/-- The layer at row r, column q. -/
theorem layer_apply (A : S50000x64.Idx → EReal) (n : S50000x1.Idx → EReal) (W : S64x64.Idx → EReal) (b : S64.Idx → EReal)
    (r : Fin 50000) (q : Fin 64) :
    layer A n W b (ix2 r q) = clip ((∑ k : Fin 64, A (ix2 r k) * n (ix2 r (0 : Fin 1)) * W (ix2 k q)) + b (ix1 q)) := rfl

theorem idx_facts : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0 ∧ win1_3.index t (0 : Fin 1) = 0
    ∧ win1_4.index t (0 : Fin 2) ≤ 9 ∧ win1_4.index t (1 : Fin 2) = 0 :=
  (by decide +kernel : ∀ t : Fin grid1.N, _)

/-- The body's value at row p, column q of a tile is the layer's value at a whole-array index i, when the tile's four
    inputs are the arrays' entries that i's row and column name. -/
theorem tile_eq (A : S50000x64.Idx → EReal) (n : S50000x1.Idx → EReal) (W : S64x64.Idx → EReal) (b : S64.Idx → EReal)
    (x0 : Vec Ideal S5000x64 .f32) (x1 : Vec Ideal S5000x1 .f32) (x2 : Vec Ideal S64x64 .f32) (x3 : Vec Ideal S64 .f32)
    (i : S50000x64.Idx) (p : Fin 5000) (q : Fin 64)
    (h0 : ∀ k : Fin 64, x0 (ix2 p k) = A (ix2 (⟨(i 0).val, (i 0).isLt⟩ : Fin 50000) k))
    (h1 : x1 (ix2 p (0 : Fin 1)) = n (ix2 (⟨(i 0).val, (i 0).isLt⟩ : Fin 50000) (0 : Fin 1)))
    (h2 : ∀ k : Fin 64, x2 (ix2 k q) = W (ix2 k (⟨(i 1).val, (i 1).isLt⟩ : Fin 64)))
    (h3 : x3 (ix1 q) = b (ix1 (⟨(i 1).val, (i 1).isLt⟩ : Fin 64))) :
    k1_pay1 (F := Ideal) x0 x1 x2 x3 (ix2 p q) = layer A n W b i := by
  rw [pay1_apply]
  unfold layer clip
  simp only [h0, h1, h2, h3]

theorem flushed_eq (c : Dev nD) (t : Fin cfg1.N) :
    (dat1 V c).flushed 4 t = ((cfg1.win 4).blk t).view.read (Elt Ideal)
      (layer (V c main_v38) (V c main_v11) (V c main_arg3) (V c main_arg4)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S5000x1) hz2, View.ld_unit_zero (S := S64x64) hz2, View.ld_unit_zero (S := S64) hz1]
  obtain ⟨e00, e01, e10, e11, e20, e21, e30, e4b, e41⟩ := idx_facts t
  funext j
  obtain ⟨p, q, rfl⟩ : ∃ (p : Fin 5000) (q : Fin 64), j = ix2 p q := ⟨j 0, j 1, eq_ix2 j⟩
  refine tile_eq (V c main_v38) (V c main_v11) (V c main_arg3) (V c main_arg4)
    (iblk1 V c 0 t) (iblk1 V c 1 t) (iblk1 V c 2 t) (iblk1 V c 3 t) (((cfg1.win 4).blk t).view.emb (ix2 p q)) p q
    (fun k => ?_) ?_ (fun k => ?_) ?_
  · show V c main_v38 (((cfg1.win 0).blk t).view.emb (ix2 p k)) = V c main_v38 _
    refine congrArg (V c main_v38) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * k.val = k.val; omega
  · show V c main_v11 (((cfg1.win 1).blk t).view.emb (ix2 p (0 : Fin 1))) = V c main_v11 _
    refine congrArg (V c main_v11) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  · show V c main_arg3 (((cfg1.win 2).blk t).view.emb (ix2 k q)) = V c main_arg3 _
    refine congrArg (V c main_arg3) (funext fun a => Fin.ext ?_)
    match a with
    | ⟨0, _⟩ => show win1_2.index t (0 : Fin 2) * 64 + 1 * k.val = k.val; omega
    | ⟨1, _⟩ => show win1_2.index t (1 : Fin 2) * 64 + 1 * q.val = win1_4.index t (1 : Fin 2) * 64 + 1 * q.val; omega
  · show V c main_arg4 (((cfg1.win 3).blk t).view.emb (ix1 q)) = V c main_arg4 _
    refine congrArg (V c main_arg4) (funext fun a => Fin.ext ?_)
    match a with
    | ⟨0, _⟩ => show win1_3.index t (0 : Fin 1) * 64 + 1 * q.val = win1_4.index t (1 : Fin 2) * 64 + 1 * q.val; omega

/-- An index of the result array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v39).slice (win1_4.rect t)).set ↔ _
  rw [View.set_slice_whole, Rect.mem_set_unit]
  exact Iff.rfl

/-- Every row block is some grid point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- The ten row blocks tile the result array: row r is in the block of point r / 5000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The result array after the region: the layer of the four arrays as the region finds them. -/
theorem final (c : Dev nD) :
    (dat1 V c).arrAt 4 cfg1.N = layer (V c main_v38) (V c main_v11) (V c main_arg3) (V c main_arg4) :=
  (dat1 V c).arrAt_eq_of_cover 4 _ (fun t _ => flushed_eq V c t) cover

end Cert.KernelIdeal.Region1
end
-- ==== Proof.Region2.lean ====
/-
  Region 2 of the kernel's program (layer 2's dense stage), as ONE function of whole arrays.
  The region walks ten row blocks of 5000 rows. At a block it reads 5000 rows of the aggregate A (64 features), the
  same 5000 entries of the column of in-degree factors n, all of the weights W and the bias b, and writes
  clip ((A * n) W + b) into the same 5000 rows of the result. Row r = 5000 t + p of every row-blocked array is row p
  of block t, so what point t writes back is the restriction to its block of
      layer A n W b (r, q) = clip (∑ k, A (r, k) * n (r, 0) * W (k, q) + b q),
  and the ten blocks tile the 50000 rows: the result array ends at `layer` of the arrays the region was entered with.
  In this region clip x = x: the last layer has no activation.
  Everything is stated at a parameter V, the buffer contents at the region's entry.
-/
import proofs.«164239_j80633716015250_1_alg».proof.Proof.Gen.KernelIdeal.Frame
import proofs.«164239_j80633716015250_1_alg».proof.Proof.KernelPayload
import Idealize.ShloMosaic.Lib.Pipeline.Value
import Idealize.ShloMosaic.Lib.ValueIdx

set_option maxRecDepth 16384

noncomputable section
namespace Cert.KernelIdeal.Region2
open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Pay

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the layer does to a pre-activation. -/
def clip (x : EReal) : EReal := x

/-- One dense layer as a function of whole arrays: row r of the aggregate scaled by the r-th norm, times the
    weights, plus the bias, then `clip`. -/
def layer (A : S50000x64.Idx → EReal) (n : S50000x1.Idx → EReal) (W : S64x64.Idx → EReal) (b : S64.Idx → EReal) :
    S50000x64.Idx → EReal := fun i =>
  clip ((∑ k : Fin 64, A (ix2 (⟨(i 0).val, (i 0).isLt⟩ : Fin 50000) k) * n (ix2 (⟨(i 0).val, (i 0).isLt⟩ : Fin 50000) (0 : Fin 1))
        * W (ix2 k (⟨(i 1).val, (i 1).isLt⟩ : Fin 64))) + b (ix1 (⟨(i 1).val, (i 1).isLt⟩ : Fin 64)))

/-- The layer at row r, column q. -/
theorem layer_apply (A : S50000x64.Idx → EReal) (n : S50000x1.Idx → EReal) (W : S64x64.Idx → EReal) (b : S64.Idx → EReal)
    (r : Fin 50000) (q : Fin 64) :
    layer A n W b (ix2 r q) = clip ((∑ k : Fin 64, A (ix2 r k) * n (ix2 r (0 : Fin 1)) * W (ix2 k q)) + b (ix1 q)) := rfl

theorem idx_facts : ∀ t : Fin cfg2.N, win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0 ∧ win2_3.index t (0 : Fin 1) = 0
    ∧ win2_4.index t (0 : Fin 2) ≤ 9 ∧ win2_4.index t (1 : Fin 2) = 0 :=
  (by decide +kernel : ∀ t : Fin grid2.N, _)

/-- The body's value at row p, column q of a tile is the layer's value at a whole-array index i, when the tile's four
    inputs are the arrays' entries that i's row and column name. -/
theorem tile_eq (A : S50000x64.Idx → EReal) (n : S50000x1.Idx → EReal) (W : S64x64.Idx → EReal) (b : S64.Idx → EReal)
    (x0 : Vec Ideal S5000x64 .f32) (x1 : Vec Ideal S5000x1 .f32) (x2 : Vec Ideal S64x64 .f32) (x3 : Vec Ideal S64 .f32)
    (i : S50000x64.Idx) (p : Fin 5000) (q : Fin 64)
    (h0 : ∀ k : Fin 64, x0 (ix2 p k) = A (ix2 (⟨(i 0).val, (i 0).isLt⟩ : Fin 50000) k))
    (h1 : x1 (ix2 p (0 : Fin 1)) = n (ix2 (⟨(i 0).val, (i 0).isLt⟩ : Fin 50000) (0 : Fin 1)))
    (h2 : ∀ k : Fin 64, x2 (ix2 k q) = W (ix2 k (⟨(i 1).val, (i 1).isLt⟩ : Fin 64)))
    (h3 : x3 (ix1 q) = b (ix1 (⟨(i 1).val, (i 1).isLt⟩ : Fin 64))) :
    k2_pay1 (F := Ideal) x0 x1 x2 x3 (ix2 p q) = layer A n W b i := by
  rw [pay2_apply]
  unfold layer clip
  simp only [h0, h1, h2, h3]

theorem flushed_eq (c : Dev nD) (t : Fin cfg2.N) :
    (dat2 V c).flushed 4 t = ((cfg2.win 4).blk t).view.read (Elt Ideal)
      (layer (V c main_v52) (V c main_v11) (V c main_arg5) (V c main_arg6)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S5000x1) hz2, View.ld_unit_zero (S := S64x64) hz2, View.ld_unit_zero (S := S64) hz1]
  obtain ⟨e00, e01, e10, e11, e20, e21, e30, e4b, e41⟩ := idx_facts t
  funext j
  obtain ⟨p, q, rfl⟩ : ∃ (p : Fin 5000) (q : Fin 64), j = ix2 p q := ⟨j 0, j 1, eq_ix2 j⟩
  refine tile_eq (V c main_v52) (V c main_v11) (V c main_arg5) (V c main_arg6)
    (iblk2 V c 0 t) (iblk2 V c 1 t) (iblk2 V c 2 t) (iblk2 V c 3 t) (((cfg2.win 4).blk t).view.emb (ix2 p q)) p q
    (fun k => ?_) ?_ (fun k => ?_) ?_
  · show V c main_v52 (((cfg2.win 0).blk t).view.emb (ix2 p k)) = V c main_v52 _
    refine congrArg (V c main_v52) (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * k.val = k.val; omega
  · show V c main_v11 (((cfg2.win 1).blk t).view.emb (ix2 p (0 : Fin 1))) = V c main_v11 _
    refine congrArg (V c main_v11) (funext fun a => Fin.ext ?_)
    match a with
    | ⟨0, _⟩ => show win2_1.index t (0 : Fin 2) * 5000 + 1 * p.val = win2_4.index t (0 : Fin 2) * 5000 + 1 * p.val; omega
    | ⟨1, _⟩ => show win2_1.index t (1 : Fin 2) * 1 + 1 * 0 = 0; omega
  · show V c main_arg5 (((cfg2.win 2).blk t).view.emb (ix2 k q)) = V c main_arg5 _
    refine congrArg (V c main_arg5) (funext fun a => Fin.ext ?_)
    match a with
    | ⟨0, _⟩ => show win2_2.index t (0 : Fin 2) * 64 + 1 * k.val = k.val; omega
    | ⟨1, _⟩ => show win2_2.index t (1 : Fin 2) * 64 + 1 * q.val = win2_4.index t (1 : Fin 2) * 64 + 1 * q.val; omega
  · show V c main_arg6 (((cfg2.win 3).blk t).view.emb (ix1 q)) = V c main_arg6 _
    refine congrArg (V c main_arg6) (funext fun a => Fin.ext ?_)
    match a with
    | ⟨0, _⟩ => show win2_3.index t (0 : Fin 1) * 64 + 1 * q.val = win2_4.index t (1 : Fin 2) * 64 + 1 * q.val; omega

/-- An index of the result array is in point t's block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v53).slice (win2_4.rect t)).set ↔ _
  rw [View.set_slice_whole, Rect.mem_set_unit]
  exact Iff.rfl

/-- Every row block is some grid point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- The ten row blocks tile the result array: row r is in the block of point r / 5000. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The result array after the region: the layer of the four arrays as the region finds them. -/
theorem final (c : Dev nD) :
    (dat2 V c).arrAt 4 cfg2.N = layer (V c main_v52) (V c main_v11) (V c main_arg5) (V c main_arg6) :=
  (dat2 V c).arrAt_eq_of_cover 4 _ (fun t _ => flushed_eq V c t) cover

end Cert.KernelIdeal.Region2
end
-- ==== Proof.RefLayers.lean ====
import proofs.«164239_j80633716015250_1_alg».proof.Proof.Gen.ReferenceIdeal.Read
noncomputable section
namespace Cert.ReferenceIdeal.Layers
open Cert.ReferenceIdeal Cert.ReferenceIdeal.Read Idealize.ShloMosaic Idealize.ShloMosaic.ValueIdx

/-! # The reference's three dense layers, one output element at a time

Each layer takes the aggregated features `A` (a scatter-add, kept as an unopened function), scales row `r` by the
inverse-square-root in-degree factor `d r` (also unopened), contracts with a weight matrix `W` over the feature axis and
adds a bias `b`:  `out (r, q) = ∑ k, A (r, k) * d r * W (k, q) + b q`.  The first two layers then take the maximum with
zero; the last one does not. -/

/-! ## Layer 0: 128 input features, weights `x1`, bias `x2` -/

/-- The contraction reads the left operand at row `r`, column `k` … -/
theorem lidx27 (r : Fin 50000) (q : Fin 64) (k : Fin 128) : lidx_main_v27 (ix2 r q) k = ix2 r k :=
  funext fun a => Fin.ext (by match a with | ⟨0, _⟩ => rfl | ⟨1, _⟩ => rfl)
/-- … and the weights at row `k`, column `q`. -/
theorem ridx27 (r : Fin 50000) (q : Fin 64) (k : Fin 128) : ridx_main_v27 (ix2 r q) k = ix2 k q :=
  funext fun a => Fin.ext (by match a with | ⟨0, _⟩ => rfl | ⟨1, _⟩ => rfl)
/-- The degree factor, broadcast along the feature axis, is read at the row alone. -/
theorem idx24_25 (r : Fin 50000) (k : Fin 128) : idx_main_v24 (idx_main_v25 (ix2 r k)) = ix1 r :=
  funext fun a => Fin.ext (by match a with | ⟨0, _⟩ => rfl)
/-- The bias, broadcast along the rows, is read at the column alone. -/
theorem idx28_29 (r : Fin 50000) (q : Fin 64) : idx_main_v28 (idx_main_v29 (ix2 r q)) = ix1 q :=
  funext fun a => Fin.ext (by match a with | ⟨0, _⟩ => rfl)

/-- Layer 0 at `(r, q)`: the sum over the 128 input features of aggregate × degree factor × weight, plus the bias,
    then the maximum with zero. -/
theorem layer0_apply (x0 : (⟨S50000x128, .f32⟩ : BufTy).Contents (Elt Ideal)) (x1 : (⟨S128x64, .f32⟩ : BufTy).Contents (Elt Ideal)) (x2 : (⟨S64, .f32⟩ : BufTy).Contents (Elt Ideal)) (x7 x8 : (⟨S1600000, .i32⟩ : BufTy).Contents (Elt Ideal)) (r : Fin 50000) (q : Fin 64) :
    val_main_v31 (F := Ideal) x0 x1 x2 x7 x8 (ix2 r q)
      = max ((∑ k : Fin 128, val_main_v23 (F := Ideal) x0 x7 x8 (ix2 r k) * val_main_v10 (F := Ideal) x8 (ix1 r) * x1 (ix2 k q)) + x2 (ix1 q)) (Ideal.ofBits .f32 0x00000000#32) := by
  rw [val_main_v31_apply, val_main_v30_apply, val_main_v27_apply, val_main_v29_apply, val_main_v28_apply,
    val_main_call2_v0_apply, val_main_call2_cst_apply]
  -- one term of the contraction: the scaled aggregate at (r, k) times the weight at (k, q)
  have hs : ∀ k : Fin 128, val_main_v26 (F := Ideal) x0 x7 x8 (lidx_main_v27 (ix2 r q) k) * x1 (ridx_main_v27 (ix2 r q) k)
      = val_main_v23 (F := Ideal) x0 x7 x8 (ix2 r k) * val_main_v10 (F := Ideal) x8 (ix1 r) * x1 (ix2 k q) := fun k => by
    rw [lidx27, ridx27, val_main_v26_apply, val_main_v25_apply, val_main_v24_apply, idx24_25]
    rfl
  rw [Finset.sum_congr rfl fun k _ => hs k, idx28_29]
  rfl

/-! ## Layer 1: 64 input features, weights `x3`, bias `x4` -/

theorem lidx48 (r : Fin 50000) (q : Fin 64) (k : Fin 64) : lidx_main_v48 (ix2 r q) k = ix2 r k :=
  funext fun a => Fin.ext (by match a with | ⟨0, _⟩ => rfl | ⟨1, _⟩ => rfl)
theorem ridx48 (r : Fin 50000) (q : Fin 64) (k : Fin 64) : ridx_main_v48 (ix2 r q) k = ix2 k q :=
  funext fun a => Fin.ext (by match a with | ⟨0, _⟩ => rfl | ⟨1, _⟩ => rfl)
theorem idx45_46 (r : Fin 50000) (k : Fin 64) : idx_main_v45 (idx_main_v46 (ix2 r k)) = ix1 r :=
  funext fun a => Fin.ext (by match a with | ⟨0, _⟩ => rfl)
theorem idx49_50 (r : Fin 50000) (q : Fin 64) : idx_main_v49 (idx_main_v50 (ix2 r q)) = ix1 q :=
  funext fun a => Fin.ext (by match a with | ⟨0, _⟩ => rfl)

/-- Layer 1 at `(r, q)`: the sum over the 64 hidden features of aggregate × degree factor × weight, plus the bias,
    then the maximum with zero. -/
theorem layer1_apply (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x7 x8 : (⟨S1600000, .i32⟩ : BufTy).Contents (Elt Ideal)) (r : Fin 50000) (q : Fin 64) :
    val_main_v52 (F := Ideal) x0 x1 x2 x3 x4 x7 x8 (ix2 r q)
      = max ((∑ k : Fin 64, val_main_v44 (F := Ideal) x0 x1 x2 x7 x8 (ix2 r k) * val_main_v10 (F := Ideal) x8 (ix1 r) * x3 (ix2 k q)) + x4 (ix1 q)) (Ideal.ofBits .f32 0x00000000#32) := by
  rw [val_main_v52_apply, val_main_v51_apply, val_main_v48_apply, val_main_v50_apply, val_main_v49_apply,
    val_main_call3_v0_apply, val_main_call3_cst_apply]
  have hs : ∀ k : Fin 64, val_main_v47 (F := Ideal) x0 x1 x2 x7 x8 (lidx_main_v48 (ix2 r q) k) * x3 (ridx_main_v48 (ix2 r q) k)
      = val_main_v44 (F := Ideal) x0 x1 x2 x7 x8 (ix2 r k) * val_main_v10 (F := Ideal) x8 (ix1 r) * x3 (ix2 k q) := fun k => by
    rw [lidx48, ridx48, val_main_v47_apply, val_main_v46_apply, val_main_v45_apply, idx45_46]
    rfl
  rw [Finset.sum_congr rfl fun k _ => hs k, idx49_50]
  rfl

/-! ## Layer 2: 64 input features, weights `x5`, bias `x6`, no maximum -/

theorem lidx69 (r : Fin 50000) (q : Fin 64) (k : Fin 64) : lidx_main_v69 (ix2 r q) k = ix2 r k :=
  funext fun a => Fin.ext (by match a with | ⟨0, _⟩ => rfl | ⟨1, _⟩ => rfl)
theorem ridx69 (r : Fin 50000) (q : Fin 64) (k : Fin 64) : ridx_main_v69 (ix2 r q) k = ix2 k q :=
  funext fun a => Fin.ext (by match a with | ⟨0, _⟩ => rfl | ⟨1, _⟩ => rfl)
theorem idx66_67 (r : Fin 50000) (k : Fin 64) : idx_main_v66 (idx_main_v67 (ix2 r k)) = ix1 r :=
  funext fun a => Fin.ext (by match a with | ⟨0, _⟩ => rfl)
theorem idx70_71 (r : Fin 50000) (q : Fin 64) : idx_main_v70 (idx_main_v71 (ix2 r q)) = ix1 q :=
  funext fun a => Fin.ext (by match a with | ⟨0, _⟩ => rfl)

/-- Layer 2 at `(r, q)`: the sum over the 64 hidden features of aggregate × degree factor × weight, plus the bias. -/
theorem layer2_apply (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 x8 : (⟨S1600000, .i32⟩ : BufTy).Contents (Elt Ideal)) (r : Fin 50000) (q : Fin 64) :
    val_main_v72 (F := Ideal) x0 x1 x2 x3 x4 x5 x6 x7 x8 (ix2 r q)
      = (∑ k : Fin 64, val_main_v65 (F := Ideal) x0 x1 x2 x3 x4 x7 x8 (ix2 r k) * val_main_v10 (F := Ideal) x8 (ix1 r) * x5 (ix2 k q)) + x6 (ix1 q) := by
  rw [val_main_v72_apply, val_main_v69_apply, val_main_v71_apply, val_main_v70_apply]
  have hs : ∀ k : Fin 64, val_main_v68 (F := Ideal) x0 x1 x2 x3 x4 x7 x8 (lidx_main_v69 (ix2 r q) k) * x5 (ridx_main_v69 (ix2 r q) k)
      = val_main_v65 (F := Ideal) x0 x1 x2 x3 x4 x7 x8 (ix2 r k) * val_main_v10 (F := Ideal) x8 (ix1 r) * x5 (ix2 k q) := fun k => by
    rw [lidx69, ridx69, val_main_v68_apply, val_main_v67_apply, val_main_v66_apply, idx66_67]
    rfl
  rw [Finset.sum_congr rfl fun k _ => hs k, idx70_71]
  rfl

end Cert.ReferenceIdeal.Layers
end
-- ==== Proof.Stages.lean ====
/-
  The kernel's program, boundary by boundary, against the reference's stages.
  Both programs compute the two degree normalisations the same way (a scatter-add of ones, a clip below at one, an
  inverse square root) and, for each of the three layers, the same aggregate: the features scaled by the out-degree
  factor, gathered along the edges' sources and scatter-added at their destinations. They differ only in who runs the
  dense stage: the kernel in a region of ten row blocks, the reference as one product over all rows. So, reading the
  kernel's buffer contents at each boundary of its program back to the launch memory,
    * before region K the aggregate buffer holds the reference's aggregate stage (the same host operations applied to
      equal operands: the two terms are one),
    * after region K the region's result holds the reference's layer stage: index by index both are
      clip (∑ k, A (r, k) * n r * W (k, q) + b q), the region's tiling being invisible in the whole array,
  while the normalisations, the weights, the biases and the edge lists ride along unchanged (`Keeps`).
-/
import proofs.«164239_j80633716015250_1_alg».proof.Proof.Gen.KernelIdeal.Frame
import proofs.«164239_j80633716015250_1_alg».proof.Proof.Gen.ReferenceIdeal.Read
import proofs.«164239_j80633716015250_1_alg».proof.Proof.Stretch
import proofs.«164239_j80633716015250_1_alg».proof.Proof.Region0
import proofs.«164239_j80633716015250_1_alg».proof.Proof.Region1
import proofs.«164239_j80633716015250_1_alg».proof.Proof.Region2
import proofs.«164239_j80633716015250_1_alg».proof.Proof.RefLayers
import Idealize.ShloMosaic.Lib.Pipeline.Value
import Idealize.ShloMosaic.Lib.ValueIdx

set_option maxRecDepth 16384

noncomputable section
namespace Cert.KernelIdeal.Stages
open Cert.KernelIdeal Cert.KernelIdeal.Gen Idealize.ShloMosaic Idealize.ShloMosaic.TcCoe Idealize.SL.Sem Idealize.ShloMosaic.StableHlo
open Idealize.ShloMosaic.ValueIdx Cert.KernelIdeal.Stretch
open Cert.ReferenceIdeal.Read (val_main_v9 val_main_v10 val_main_v23 val_main_v31 val_main_v44 val_main_v52 val_main_v65 val_main_v72)

/-! ## The two programs name the same dimension records -/

theorem rec_scatter1 : (scatter_S50000_S1600000x1_S1600000_n_0_0_1 : ScatterDims S50000 S1600000x1 S1600000)
    = Cert.ReferenceIdeal.scatter_S50000_S1600000x1_S1600000_n_0_0_1 := rfl
theorem rec_gather128 : (gather_S50000x128_S1600000x1_S1600000x128_1_0_n_n_0_1_1128 : GatherDims S50000x128 S1600000x1 S1600000x128)
    = Cert.ReferenceIdeal.gather_S50000x128_S1600000x1_S1600000x128_1_0_n_n_0_1_1128 := rfl
theorem rec_scatter128 : (scatter_S50000x128_S1600000x1_S1600000x128_1_0_0_1 : ScatterDims S50000x128 S1600000x1 S1600000x128)
    = Cert.ReferenceIdeal.scatter_S50000x128_S1600000x1_S1600000x128_1_0_0_1 := rfl
theorem rec_gather64 : (gather_S50000x64_S1600000x1_S1600000x64_1_0_n_n_0_1_164 : GatherDims S50000x64 S1600000x1 S1600000x64)
    = Cert.ReferenceIdeal.gather_S50000x64_S1600000x1_S1600000x64_1_0_n_n_0_1_164 := rfl
theorem rec_scatter64 : (scatter_S50000x64_S1600000x1_S1600000x64_1_0_0_1 : ScatterDims S50000x64 S1600000x1 S1600000x64)
    = Cert.ReferenceIdeal.scatter_S50000x64_S1600000x1_S1600000x64_1_0_0_1 := rfl

/-! ## The reference's host stages are the kernel program's host terms -/

/-- A vector of ones, one per edge; and the scalar one the degrees are clipped at. -/
abbrev ones : FVec Ideal S1600000 .f32 := broadcastInDim S1600000 ![] bcast_S_S1600000 (constant (F := Ideal) S_ .f32 0x3F800000#32)
abbrev one : FVec Ideal S_ .f32 := constant (F := Ideal) S_ .f32 0x3F800000#32

open Cert.ReferenceIdeal.Read in
/-- The out-degree factor: the inverse square root of the clipped count of edges leaving each node. -/
theorem ref_outnorm (x7 : IVec S1600000 32) :
    @Host.rsqrt Ideal _ S50000 .f32 (clipped one (degree x7 ones)) = val_main_v9 (F := Ideal) x7 := by
  unfold clipped degree
  rw [rec_scatter1]
  unfold val_main_v9 val_main_v4 val_main_call0_v1 val_main_call0_v0 val_main_cst_1 val_main_v3 val_main_v2 val_main_v1 val_main_v0 val_main_cst_0 val_main_cst
  rfl

open Cert.ReferenceIdeal.Read in
/-- The in-degree factor, likewise, of the edges arriving. -/
theorem ref_innorm (x8 : IVec S1600000 32) :
    @Host.rsqrt Ideal _ S50000 .f32 (clipped one (degree x8 ones)) = val_main_v10 (F := Ideal) x8 := by
  unfold clipped degree
  rw [rec_scatter1]
  unfold val_main_v10 val_main_v8 val_main_call1_v1 val_main_call1_v0 val_main_cst_3 val_main_v7 val_main_v6 val_main_v5 val_main_v0 val_main_cst_2 val_main_cst
  rfl

open Cert.ReferenceIdeal.Read in
/-- Layer 0's aggregate of the features. -/
theorem ref_agg0 (x0 : FVec Ideal S50000x128 .f32) (x7 x8 : IVec S1600000 32) :
    aggregate128 x0 (val_main_v9 (F := Ideal) x7) x7 x8 = val_main_v23 (F := Ideal) x0 x7 x8 := by
  unfold aggregate128 wrapped
  rw [rec_scatter128, rec_gather128]
  unfold val_main_v23 val_main_v22 val_main_v21 val_main_cst_5 val_main_v20 val_main_v19 val_main_v18 val_main_v17 val_main_v16 val_main_c_4 val_main_v15 val_main_v14 val_main_c val_main_v13 val_main_v12 val_main_v11
  rfl

open Cert.ReferenceIdeal.Read in
/-- Layer 1's aggregate of layer 0's result. -/
theorem ref_agg1 (x0 : FVec Ideal S50000x128 .f32) (x1 : FVec Ideal S128x64 .f32) (x2 : FVec Ideal S64 .f32) (x7 x8 : IVec S1600000 32) :
    aggregate64 (val_main_v31 (F := Ideal) x0 x1 x2 x7 x8) (val_main_v9 (F := Ideal) x7) x7 x8 = val_main_v44 (F := Ideal) x0 x1 x2 x7 x8 := by
  unfold aggregate64 wrapped
  rw [rec_scatter64, rec_gather64]
  unfold val_main_v44 val_main_v43 val_main_v42 val_main_cst_8 val_main_v41 val_main_v40 val_main_v39 val_main_v38 val_main_v37 val_main_c_7 val_main_v36 val_main_v35 val_main_c_6 val_main_v34 val_main_v33 val_main_v32
  rfl

open Cert.ReferenceIdeal.Read in
/-- Layer 2's aggregate of layer 1's result. -/
theorem ref_agg2 (x0 : FVec Ideal S50000x128 .f32) (x1 : FVec Ideal S128x64 .f32) (x2 : FVec Ideal S64 .f32) (x3 : FVec Ideal S64x64 .f32) (x4 : FVec Ideal S64 .f32) (x7 x8 : IVec S1600000 32) :
    aggregate64 (val_main_v52 (F := Ideal) x0 x1 x2 x3 x4 x7 x8) (val_main_v9 (F := Ideal) x7) x7 x8 = val_main_v65 (F := Ideal) x0 x1 x2 x3 x4 x7 x8 := by
  unfold aggregate64 wrapped
  rw [rec_scatter64, rec_gather64]
  unfold val_main_v65 val_main_v64 val_main_v63 val_main_cst_11 val_main_v62 val_main_v61 val_main_v60 val_main_v59 val_main_v58 val_main_c_10 val_main_v57 val_main_v56 val_main_c_9 val_main_v55 val_main_v54 val_main_v53
  rfl

/-! ## The boundaries -/

variable (m : (ℓ : Loc nD τ sig) → Buf (Elt Ideal) ℓ) (ρ : Dev nD → PrngReg)

/-- The nine arguments as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

/-- The in-degree factors as the column the regions read. -/
abbrev ncol (c : Dev nD) : S50000x1.Idx → EReal :=
  shapeCast S50000x1 (val_main_v10 (F := Ideal) (a8 m c)) shapeCasts_S50000_S50000x1

/-- The column at row r is the factor of node r. -/
theorem ncol_apply (c : Dev nD) (r : Fin 50000) : ncol m c (ix2 r (0 : Fin 1)) = val_main_v10 (F := Ideal) (a8 m c) (ix1 r) := by
  refine shapeCast_apply _ _ (ix2 r (0 : Fin 1)) (ix1 r) ?_
  rw [Shape.rowMajor_val_one, Shape.rowMajor_val_two]
  show r.val = r.val * 1 + 0
  omega

/-! ### Up to region 0: the degrees, their clips, the normalisations, layer 0's aggregate -/

theorem w1_one (c : Dev nD) : W1 m ρ c (Proc.devRef .tc main_cst_1) = one := one_after0 (W0 m ρ c)
theorem w1_ones (c : Dev nD) : W1 m ρ c (Proc.devRef .tc main_v0) = ones := ones_after0 (W0 m ρ c)
theorem w1_outdeg (c : Dev nD) : W1 m ρ c (Proc.devRef .tc main_v3) = degree (a7 m c) ones := outdeg_after0 (W0 m ρ c)

theorem w2_outclip (c : Dev nD) : W2 m ρ c (Proc.devRef .tc main_v4) = clipped one (degree (a7 m c) ones) := by
  refine (outclip_after1 (W1 m ρ c)).trans ?_
  rw [w1_one, w1_outdeg]
theorem w2_ones (c : Dev nD) : W2 m ρ c (Proc.devRef .tc main_v0) = ones := (ones_kept1 (W1 m ρ c)).trans (w1_ones m ρ c)
theorem w2_arg8 (c : Dev nD) : W2 m ρ c (Proc.devRef .tc main_arg8) = a8 m c := by
  dsimp only [W2, W1, W0, hostOps0_1, hostOps0]; after_results_simp

theorem w3_one (c : Dev nD) : W3 m ρ c (Proc.devRef .tc main_cst_3) = one := one_after2 (W2 m ρ c)
theorem w3_indeg (c : Dev nD) : W3 m ρ c (Proc.devRef .tc main_v7) = degree (a8 m c) ones := by
  refine (indeg_after2 (W2 m ρ c)).trans ?_
  rw [w2_arg8, w2_ones]
theorem w3_outclip (c : Dev nD) : W3 m ρ c (Proc.devRef .tc main_v4) = clipped one (degree (a7 m c) ones) :=
  (outclip_kept2 (W2 m ρ c)).trans (w2_outclip m ρ c)

theorem w4_outclip (c : Dev nD) : W4 m ρ c (Proc.devRef .tc main_v4) = clipped one (degree (a7 m c) ones) :=
  (outclip_kept3 (W3 m ρ c)).trans (w3_outclip m ρ c)
theorem w4_inclip (c : Dev nD) : W4 m ρ c (Proc.devRef .tc main_v8) = clipped one (degree (a8 m c) ones) := by
  refine (inclip_after3 (W3 m ρ c)).trans ?_
  rw [w3_one, w3_indeg]
theorem w4_arg0 (c : Dev nD) : W4 m ρ c (Proc.devRef .tc main_arg0) = a0 m c := by
  dsimp only [W4, W3, W2, W1, W0, hostOps0_3, hostOps0_2, hostOps0_1, hostOps0]; after_results_simp
theorem w4_arg7 (c : Dev nD) : W4 m ρ c (Proc.devRef .tc main_arg7) = a7 m c := by
  dsimp only [W4, W3, W2, W1, W0, hostOps0_3, hostOps0_2, hostOps0_1, hostOps0]; after_results_simp
theorem w4_arg8 (c : Dev nD) : W4 m ρ c (Proc.devRef .tc main_arg8) = a8 m c := by
  dsimp only [W4, W3, W2, W1, W0, hostOps0_3, hostOps0_2, hostOps0_1, hostOps0]; after_results_simp

theorem w5_outnorm (c : Dev nD) : W5 m ρ c (Proc.devRef .tc main_v9) = val_main_v9 (F := Ideal) (a7 m c) := by
  refine (outnorm_after4 (W4 m ρ c)).trans ?_
  rw [w4_outclip]
  exact ref_outnorm _
theorem w5_incol (c : Dev nD) : W5 m ρ c (Proc.devRef .tc main_v11) = ncol m c := by
  refine (incol_after4 (W4 m ρ c)).trans ?_
  rw [w4_inclip, ref_innorm]
/-- Region 0's aggregate input is the reference's layer-0 aggregate. -/
theorem w5_agg (c : Dev nD) : W5 m ρ c (Proc.devRef .tc main_v24) = val_main_v23 (F := Ideal) (a0 m c) (a7 m c) (a8 m c) := by
  refine (agg_after4 (W4 m ρ c)).trans ?_
  rw [w4_outclip, w4_arg0, w4_arg7, w4_arg8, ref_outnorm]
  exact ref_agg0 _ _ _

/-- What every later boundary's contents keep: the out-degree factors, the in-degree column, the weights, the biases
    and the two edge lists. -/
def Keeps (c : Dev nD) (W : Valuation τ sig (Elt Ideal)) : Prop :=
  W (Proc.devRef .tc main_v9) = val_main_v9 (F := Ideal) (a7 m c)
  ∧ W (Proc.devRef .tc main_v11) = ncol m c
  ∧ W (Proc.devRef .tc main_arg1) = a1 m c ∧ W (Proc.devRef .tc main_arg2) = a2 m c
  ∧ W (Proc.devRef .tc main_arg3) = a3 m c ∧ W (Proc.devRef .tc main_arg4) = a4 m c
  ∧ W (Proc.devRef .tc main_arg5) = a5 m c ∧ W (Proc.devRef .tc main_arg6) = a6 m c
  ∧ W (Proc.devRef .tc main_arg7) = a7 m c ∧ W (Proc.devRef .tc main_arg8) = a8 m c

theorem keeps5 (c : Dev nD) : Keeps m c (W5 m ρ c) := by
  refine ⟨w5_outnorm m ρ c, w5_incol m ρ c, ?_, ?_, ?_, ?_, ?_, ?_, ?_, ?_⟩ <;>
    (dsimp only [W5, W4, W3, W2, W1, W0, hostOps0_4, hostOps0_3, hostOps0_2, hostOps0_1, hostOps0]; after_results_simp)

/-! ### Region 0 and the stretch after it -/

/-- An input window's array leaves region 0 as it entered. -/
theorem in_across0 (c : Dev nD) (w : Fin cfg0.W) (hw : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hw _).trans (A_eq0 (V5 m ρ) c w))

theorem keeps6 (c : Dev nD) : Keeps m c (W6 m ρ c) := by
  obtain ⟨h9, h11, h1, h2, h3, h4, h5, h6, h7, h8⟩ := keeps5 m ρ c
  exact ⟨(W6_of_ne m ρ c main_v9 (by decide)).trans h9, (in_across0 m ρ c 1 rfl).trans h11,
    (in_across0 m ρ c 2 rfl).trans h1, (in_across0 m ρ c 3 rfl).trans h2,
    (W6_of_ne m ρ c main_arg3 (by decide)).trans h3, (W6_of_ne m ρ c main_arg4 (by decide)).trans h4,
    (W6_of_ne m ρ c main_arg5 (by decide)).trans h5, (W6_of_ne m ρ c main_arg6 (by decide)).trans h6,
    (W6_of_ne m ρ c main_arg7 (by decide)).trans h7, (W6_of_ne m ρ c main_arg8 (by decide)).trans h8⟩

/-- Region 0's result is the reference's layer 0. -/
theorem w6_layer (c : Dev nD) : W6 m ρ c (Proc.devRef .tc main_v25)
    = val_main_v31 (F := Ideal) (a0 m c) (a1 m c) (a2 m c) (a7 m c) (a8 m c) := by
  obtain ⟨h9, h11, h1, h2, -⟩ := keeps5 m ρ c
  refine (W6_arr m ρ c 4).trans ?_
  rw [Region0.final]
  funext i
  obtain ⟨r, q, rfl⟩ : ∃ (r : Fin 50000) (q : Fin 64), i = ix2 r q := ⟨i 0, i 1, eq_ix2 i⟩
  rw [Cert.ReferenceIdeal.Layers.layer0_apply, Region0.layer_apply]
  dsimp only [V5]
  rw [w5_agg, h11, h1, h2]
  unfold Region0.clip
  rw [ncol_apply]

theorem keeps7 (c : Dev nD) : Keeps m c (W7 m ρ c) := by
  obtain ⟨h9, h11, h1, h2, h3, h4, h5, h6, h7, h8⟩ := keeps6 m ρ c
  refine ⟨?_, ?_, ?_, ?_, ?_, ?_, ?_, ?_, ?_, ?_⟩ <;> (dsimp only [W7, hostOps1]; after_results_simp)
  · exact h9
  · exact h11
  · exact h1
  · exact h2
  · exact h3
  · exact h4
  · exact h5
  · exact h6
  · exact h7
  · exact h8

/-- Region 1's aggregate input is the reference's layer-1 aggregate. -/
theorem w7_agg (c : Dev nD) : W7 m ρ c (Proc.devRef .tc main_v38)
    = val_main_v44 (F := Ideal) (a0 m c) (a1 m c) (a2 m c) (a7 m c) (a8 m c) := by
  obtain ⟨h9, h11, h1, h2, h3, h4, h5, h6, h7, h8⟩ := keeps6 m ρ c
  refine (agg_after_region0 (W6 m ρ c)).trans ?_
  rw [w6_layer, h9, h7, h8]
  exact ref_agg1 _ _ _ _ _

/-! ### Region 1 and the stretch after it -/

theorem in_across1 (c : Dev nD) (w : Fin cfg1.W) (hw : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hw _).trans (A_eq1 (V7 m ρ) c w))

theorem keeps8 (c : Dev nD) : Keeps m c (W8 m ρ c) := by
  obtain ⟨h9, h11, h1, h2, h3, h4, h5, h6, h7, h8⟩ := keeps7 m ρ c
  exact ⟨(W8_of_ne m ρ c main_v9 (by decide)).trans h9, (in_across1 m ρ c 1 rfl).trans h11,
    (W8_of_ne m ρ c main_arg1 (by decide)).trans h1, (W8_of_ne m ρ c main_arg2 (by decide)).trans h2,
    (in_across1 m ρ c 2 rfl).trans h3, (in_across1 m ρ c 3 rfl).trans h4,
    (W8_of_ne m ρ c main_arg5 (by decide)).trans h5, (W8_of_ne m ρ c main_arg6 (by decide)).trans h6,
    (W8_of_ne m ρ c main_arg7 (by decide)).trans h7, (W8_of_ne m ρ c main_arg8 (by decide)).trans h8⟩

/-- Region 1's result is the reference's layer 1. -/
theorem w8_layer (c : Dev nD) : W8 m ρ c (Proc.devRef .tc main_v39)
    = val_main_v52 (F := Ideal) (a0 m c) (a1 m c) (a2 m c) (a3 m c) (a4 m c) (a7 m c) (a8 m c) := by
  obtain ⟨h9, h11, h1, h2, h3, h4, -⟩ := keeps7 m ρ c
  refine (W8_arr m ρ c 4).trans ?_
  rw [Region1.final]
  funext i
  obtain ⟨r, q, rfl⟩ : ∃ (r : Fin 50000) (q : Fin 64), i = ix2 r q := ⟨i 0, i 1, eq_ix2 i⟩
  rw [Cert.ReferenceIdeal.Layers.layer1_apply, Region1.layer_apply]
  dsimp only [V7]
  rw [w7_agg, h11, h3, h4]
  unfold Region1.clip
  rw [ncol_apply]

theorem keeps9 (c : Dev nD) : Keeps m c (W9 m ρ c) := by
  obtain ⟨h9, h11, h1, h2, h3, h4, h5, h6, h7, h8⟩ := keeps8 m ρ c
  refine ⟨?_, ?_, ?_, ?_, ?_, ?_, ?_, ?_, ?_, ?_⟩ <;> (dsimp only [W9, hostOps2]; after_results_simp)
  · exact h9
  · exact h11
  · exact h1
  · exact h2
  · exact h3
  · exact h4
  · exact h5
  · exact h6
  · exact h7
  · exact h8

/-- Region 2's aggregate input is the reference's layer-2 aggregate. -/
theorem w9_agg (c : Dev nD) : W9 m ρ c (Proc.devRef .tc main_v52)
    = val_main_v65 (F := Ideal) (a0 m c) (a1 m c) (a2 m c) (a3 m c) (a4 m c) (a7 m c) (a8 m c) := by
  obtain ⟨h9, h11, h1, h2, h3, h4, h5, h6, h7, h8⟩ := keeps8 m ρ c
  refine (agg_after_region1 (W8 m ρ c)).trans ?_
  rw [w8_layer, h9, h7, h8]
  exact ref_agg2 _ _ _ _ _ _ _

/-! ### Region 2: the result -/

/-- The kernel program's result array is the reference's last stage, of the launch contents of the nine arguments. -/
theorem result_eq (c : Dev nD) : W10 m ρ c (Proc.devRef .tc main_v53)
    = val_main_v72 (F := Ideal) (a0 m c) (a1 m c) (a2 m c) (a3 m c) (a4 m c) (a5 m c) (a6 m c) (a7 m c) (a8 m c) := by
  obtain ⟨h9, h11, h1, h2, h3, h4, h5, h6, -⟩ := keeps9 m ρ c
  refine (W10_arr m ρ c 4).trans ?_
  rw [Region2.final]
  funext i
  obtain ⟨r, q, rfl⟩ : ∃ (r : Fin 50000) (q : Fin 64), i = ix2 r q := ⟨i 0, i 1, eq_ix2 i⟩
  rw [Cert.ReferenceIdeal.Layers.layer2_apply, Region2.layer_apply]
  dsimp only [V9]
  rw [w9_agg, h11, h5, h6]
  unfold Region2.clip
  rw [ncol_apply]

end Cert.KernelIdeal.Stages
end
-- ==== Proof.lean ====
/-
  A three-layer graph convolution: the kernel program against the jnp reference, over the extended reals.
  Both programs normalise by the degrees (a scatter-add of ones at the edges' ends, clipped below at one, inverse
  square root) and, per layer, aggregate the features along the edges (scale by the out-degree factor, gather at the
  sources, scatter-add at the destinations); then comes the dense stage
      clip (((aggregate) * (in-degree factor)) W + b),
  clip being the maximum with zero in the first two layers and nothing in the last. The reference runs that stage as one
  product over all 50000 rows; the kernel program runs it in a region that walks ten row blocks of 5000 rows, rounding the
  two factors to bf16 before the product, which over the extended reals is the identity. A row block of a product is the
  product of the row block, so each region leaves in its result array exactly the reference's layer, index by index
  the same sum over the contracted axis; everything else is the same host operations applied to equal operands.
  No law of arithmetic is used beyond that, and so the finiteness of the inputs is never opened.
-/
import proofs.«164239_j80633716015250_1_alg».proof.Defs
import proofs.«164239_j80633716015250_1_alg».proof.Proof.Gen.Kernel
import proofs.«164239_j80633716015250_1_alg».proof.Proof.Gen.Kernel.Skeleton
import proofs.«164239_j80633716015250_1_alg».proof.Proof.Gen.Kernel.Launch
import proofs.«164239_j80633716015250_1_alg».proof.Proof.Gen.Kernel.Points
import proofs.«164239_j80633716015250_1_alg».proof.Proof.Gen.Kernel.Frame
import proofs.«164239_j80633716015250_1_alg».proof.Proof.Gen.KernelIdeal
import proofs.«164239_j80633716015250_1_alg».proof.Proof.Gen.KernelIdeal.Skeleton
import proofs.«164239_j80633716015250_1_alg».proof.Proof.Gen.KernelIdeal.Launch
import proofs.«164239_j80633716015250_1_alg».proof.Proof.Gen.KernelIdeal.Points
import proofs.«164239_j80633716015250_1_alg».proof.Proof.Gen.KernelIdeal.Frame
import proofs.«164239_j80633716015250_1_alg».proof.Proof.Gen.ReferenceIdeal
import proofs.«164239_j80633716015250_1_alg».proof.Proof.Gen.Pre_finite_inputs
import proofs.«164239_j80633716015250_1_alg».proof.Proof.Gen.ReferenceIdeal.Run
import proofs.«164239_j80633716015250_1_alg».proof.Proof.Gen.ReferenceIdeal.Read
import proofs.«164239_j80633716015250_1_alg».proof.Proof.LaunchResult
import proofs.«164239_j80633716015250_1_alg».proof.Proof.Stages
import Idealize.ShloMosaic.Adequacy
import Idealize.ShloMosaic.Init

noncomputable section

namespace Cert.Proof

open Idealize.ShloMosaic Idealize.SL.Sem

/-- The kernel program as printed runs, and leaves its arguments alone. -/
theorem frame_kernel : Cert.frame_Kernel := fun m ρ _ => Cert.Kernel.Gen.frame m ρ
/-- So does its reading over the extended reals. -/
theorem frame_kernelIdeal : Cert.frame_KernelIdeal := fun m ρ _ => Cert.KernelIdeal.Gen.frame m ρ
/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with the same result array: the reference's
    last stage of the arguments. The kernel program's run leaves it in its result array (`Stages.result_eq`, over the
    launch's run with the result array named); the reference's run ends at it by definition. -/
theorem algebraic : Cert.algebraic_KernelIdeal_ReferenceIdeal := by
  intro m ρ m' ρ' _ hagree
  refine ⟨fun c => Cert.ReferenceIdeal.Read.val_main_v72 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stages.result_eq m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v72_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
